-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S2048x3072 : Shape := ⟨2, ![2048, 3072]⟩
abbrev S1024x3072 : Shape := ⟨2, ![1024, 3072]⟩
abbrev S3072 : Shape := ⟨1, ![3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x3072 : S_.BroadcastsInDim S2048x3072 (![] : Fin 0 → Fin S2048x3072.rank)
  reducesTo_S2048x3072_S_d0_1 : S2048x3072.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x3072 .f32) (main_arg12 : FVec F S3072 .f32) (main_arg13 : FVec F S3072 .f32) (main_v48 : IVec S_ 1) (main_v49 : FVec F S2048x3072 .f32) (main_v50 : FVec F S2048x3072 .f32) : IVec S_ 1 :=
  let main_v51 : IVec S2048x3072 1 := cmpf .olt main_v49 main_v50
  let main_c_19 : IVec S_ 1 := constantI S_ 1 1#1
  let main_v52 : IVec S_ 1 := (fun x v => Host.reduce IntOp.andi x v reducesTo_S2048x3072_S_d0_1 h_S_) main_v51 main_c_19
  let main_v53 : IVec S_ 1 := andi main_v48 main_v52
  let main_v54 : FVec F S1024x3072 .f32 := Host.absf main_arg11
  let main_cst_20 : FVec F S_ .f32 := constant S_ .f32 0x7F800000#32
  let main_v55 : FVec F S1024x3072 .f32 := broadcastInDim S1024x3072 ![] bcast_S_S1024x3072 main_cst_20
  let main_v56 : IVec S1024x3072 1 := cmpf .olt main_v54 main_v55
  let main_c_21 : IVec S_ 1 := constantI S_ 1 1#1
  let main_v57 : IVec S_ 1 := (fun x v => Host.reduce IntOp.andi x v reducesTo_S1024x3072_S_d0_1 h_S_) main_v56 main_c_21
  let main_v58 : IVec S_ 1 := andi main_v53 main_v57
  let main_v59 : FVec F S3072 .f32 := Host.absf main_arg12
  let main_cst_22 : FVec F S_ .f32 := constant S_ .f32 0x7F800000#32
  let main_v60 : FVec F S3072 .f32 := broadcastInDim S3072 ![] bcast_S_S3072 main_cst_22
  let main_v61 : IVec S3072 1 := cmpf .olt main_v59 main_v60
  let main_c_23 : IVec S_ 1 := constantI S_ 1 1#1
  let main_v62 : IVec S_ 1 := (fun x v => Host.reduce IntOp.andi x v reducesTo_S3072_S_d0 h_S_) main_v61 main_c_23
  let main_v63 : IVec S_ 1 := andi main_v58 main_v62
  let main_v64 : FVec F S3072 .f32 := Host.absf main_arg13
  let main_cst_24 : FVec F S_ .f32 := constant S_ .f32 0x7F800000#32
  let main_v65 : FVec F S3072 .f32 := broadcastInDim S3072 ![] bcast_S_S3072 main_cst_24
  let main_v66 : IVec S3072 1 := cmpf .olt main_v64 main_v65
  let main_c_25 : IVec S_ 1 := constantI S_ 1 1#1
  let main_v67 : IVec S_ 1 := (fun x v => Host.reduce IntOp.andi x v reducesTo_S3072_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024 .f32) (main_arg10 : FVec F S2048x3072 .f32) (main_arg11 : FVec F S1024x3072 .f32) (main_arg12 : FVec F S3072 .f32) (main_arg13 : FVec F S3072 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S2048x3072 .f32 := Host.absf main_arg10
  let main_cst_18 : FVec F S_ .f32 := constant S_ .f32 0x7F800000#32
  let main_v50 : FVec F S2048x3072 .f32 := broadcastInDim S2048x3072 ![] bcast_S_S2048x3072 main_cst_18
  fn_part3 (F := F) main_arg11 main_arg12 main_arg13 main_v48 main_v49 main_v50

def fn_part1 {F : FTy → Type} [FloatOps F] (main_arg4 : FVec F S16384x1024 .f32) (main_arg5 : FVec F S16384x1024 .f32) (main_arg6 : FVec F S1024x1024 .f32) (main_arg7 : FVec F S1024 .f32) (main_arg8 : FVec F S1024x1024 .f32) (main_arg9 : FVec F S1024 .f32) (main_arg10 : FVec F S2048x3072 .f32) (main_arg11 : FVec F S1024x3072 .f32) (main_arg12 : FVec F S3072 .f32) (main_arg13 : FVec F S3072 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S16384x1024 .f32) (main_arg6 : FVec F S1024x1024 .f32) (main_arg7 : FVec F S1024 .f32) (main_arg8 : FVec F S1024x1024 .f32) (main_arg9 : FVec F S1024 .f32) (main_arg10 : FVec F S2048x3072 .f32) (main_arg11 : FVec F S1024x3072 .f32) (main_arg12 : FVec F S3072 .f32) (main_arg13 : FVec F S3072 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S2048x3072 : Shape := ⟨2, ![2048, 3072]⟩
abbrev S1024x3072 : Shape := ⟨2, ![1024, 3072]⟩
abbrev S3072 : Shape := ⟨1, ![3072]⟩
abbrev S1x1024 : Shape := ⟨2, ![1, 1024]⟩
abbrev S1x3072 : Shape := ⟨2, ![1, 3072]⟩
abbrev S128x1024 : Shape := ⟨2, ![128, 1024]⟩
abbrev S128x2048 : Shape := ⟨2, ![128, 2048]⟩
abbrev S128x3072 : Shape := ⟨2, ![128, 3072]⟩

abbrev nBuf : Space → Nat
  | .hbm => 25
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2048x3072, .f32⟩
  | .hbm, ⟨11, _⟩ => ⟨S1024x3072, .f32⟩
  | .hbm, ⟨12, _⟩ => ⟨S3072, .f32⟩
  | .hbm, ⟨13, _⟩ => ⟨S3072, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S2048x3072, .bf16⟩
  | .hbm, ⟨19, _⟩ => ⟨S1024x3072, .bf16⟩
  | .hbm, ⟨20, _⟩ => ⟨S1x1024, .f32⟩
  | .hbm, ⟨21, _⟩ => ⟨S1x1024, .f32⟩
  | .hbm, ⟨22, _⟩ => ⟨S1x3072, .f32⟩
  | .hbm, ⟨23, _⟩ => ⟨S1x3072, .f32⟩
  | .hbm, ⟨24, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1024x1024, .bf16⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S2048x3072, .bf16⟩
  | .local _ .vmem, ⟨17, _⟩ => ⟨S1x3072, .f32⟩
  | .local _ .vmem, ⟨18, _⟩ => ⟨S1024x3072, .bf16⟩
  | .local _ .vmem, ⟨19, _⟩ => ⟨S1x3072, .f32⟩
  | .local _ .vmem, ⟨20, _⟩ => ⟨S128x1024, .f32⟩
  | .local _ .vmem, ⟨21, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S3072_S1x3072 : S3072.ShapeCasts S1x3072
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  concatenates_S128x1024_S128x1024_S128x2048_d1 : Shape.Concatenates [S128x1024, S128x1024] S128x2048 1
  inb_S2048x3072_S2048x3072_0_0 : ∀ a, (![0, 0] : Fin 2 → Nat) a + S2048x3072.size a ≤ S2048x3072.size a
  h_S2048x3072 : 0 < S2048x3072.numel
  shapeCasts_S2048x3072_S2048x3072 : S2048x3072.ShapeCasts S2048x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S128x3072 : S1x3072.Broadcasts S128x3072
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S128x3072_o0_0_S128x1024 : S128x3072.Slices ![0, 0] S128x1024
  slices_S128x3072_o0_1024_S128x1024 : S128x3072.Slices ![0, 1024] S128x1024
  slices_S128x3072_o0_2048_S128x1024 : S128x3072.Slices ![0, 2048] S128x1024
  dot_S128x1024_S1024x1024_S128x1024_1_0_0_1_n_n_wf : DotDims.WF S128x1024 S1024x1024 S128x1024 [1] [0] [0] [1] [] []
  dot_S128x2048_S2048x3072_S128x3072_1_0_0_1_n_n_wf : DotDims.WF S128x2048 S2048x3072 S128x3072 [1] [0] [0] [1] [] []
  dot_S128x1024_S1024x3072_S128x3072_1_0_0_1_n_n_wf : DotDims.WF S128x1024 S1024x3072 S128x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S16384x1024.size a
  hwx0_3 : ∀ i : grid0.Coords, EltTy.bits .f32 = 32 ∨ (Rect.block (s := S16384x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S16384x1024.size a
  hwx0_4 : ∀ i : grid0.Coords, EltTy.bits .f32 = 32 ∨ (Rect.block (s := S16384x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S16384x1024.size a
  hwx0_5 : ∀ i : grid0.Coords, EltTy.bits .f32 = 32 ∨ (Rect.block (s := S16384x1024) S128x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x3072.size a ≤ S2048x3072.size a
  hwx0_10 : ∀ i : grid0.Coords, EltTy.bits .bf16 = 32 ∨ (Rect.block (s := S2048x3072) S2048x3072.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x3072.size a ≤ S1x3072.size a
  hwx0_11 : ∀ i : grid0.Coords, EltTy.bits .f32 = 32 ∨ (Rect.block (s := S1x3072) S1x3072.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x3072.size a ≤ S1024x3072.size a
  hwx0_12 : ∀ i : grid0.Coords, EltTy.bits .bf16 = 32 ∨ (Rect.block (s := S1024x3072) S1024x3072.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x3072.size a ≤ S1x3072.size a
  hwx0_13 : ∀ i : grid0.Coords, EltTy.bits .f32 = 32 ∨ (Rect.block (s := S1x3072) S1x3072.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1024.size a ≤ S16384x1024.size a
  hwx0_14 : ∀ i : grid0.Coords, EltTy.bits .f32 = 32 ∨ (Rect.block (s := S16384x1024) S128x1024.size (cc0_transform_14 i) (hinb0_14 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x2048_S2048x3072_S128x3072_1_0_0_1_n_n : DotDims S128x2048 S2048x3072 S128x3072 where
  lhsContracting := [1]
  rhsContracting := [0]
  lhsNonContracting := [0]
  rhsNonContracting := [1]
  lhsBatch := []
  rhsBatch := []
  wf := dot_S128x2048_S2048x3072_S128x3072_1_0_0_1_n_n_wf
def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S2048x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x3072.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x3072.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S1x3072.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S128x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S2048x3072 : Shape := ⟨2, ![2048, 3072]⟩
abbrev S1024x3072 : Shape := ⟨2, ![1024, 3072]⟩
abbrev S3072 : Shape := ⟨1, ![3072]⟩
abbrev S1x1024 : Shape := ⟨2, ![1, 1024]⟩
abbrev S_ : Shape := ⟨0, ![]⟩
abbrev S16384x2048 : Shape := ⟨2, ![16384, 2048]⟩
abbrev S16384x3072 : Shape := ⟨2, ![16384, 3072]⟩
abbrev S1x3072 : Shape := ⟨2, ![1, 3072]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S2048x3072, .f32⟩
  | .hbm, ⟨11, _⟩ => ⟨S1024x3072, .f32⟩
  | .hbm, ⟨12, _⟩ => ⟨S3072, .f32⟩
  | .hbm, ⟨13, _⟩ => ⟨S3072, .f32⟩
  | .hbm, ⟨14, _⟩ => ⟨S1024x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1024x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x2048, .f32⟩
  | .hbm, ⟨48, _⟩ => ⟨S16384x3072, .f32⟩
  | .hbm, ⟨49, _⟩ => ⟨S1x3072, .f32⟩
  | .hbm, ⟨50, _⟩ => ⟨S16384x3072, .f32⟩
  | .hbm, ⟨51, _⟩ => ⟨S16384x3072, .f32⟩
  | .hbm, ⟨52, _⟩ => ⟨S16384x3072, .f32⟩
  | .hbm, ⟨53, _⟩ => ⟨S1x3072, .f32⟩
  | .hbm, ⟨54, _⟩ => ⟨S16384x3072, .f32⟩
  | .hbm, ⟨55, _⟩ => ⟨S16384x3072, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_cst : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_1 : Ref sig .tc := ⟨.hbm, 65, rfl⟩
abbrev main_v45 : Ref sig .tc := ⟨.hbm, 66, rfl⟩
abbrev main_v46 : Ref sig .tc := ⟨.hbm, 67, rfl⟩
abbrev main_cst_2 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_3 : Ref sig .tc := ⟨.hbm, 74, rfl⟩
abbrev main_v52 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  concatenates_S16384x1024_S16384x1024_S16384x2048_d1 : Shape.Concatenates [S16384x1024, S16384x1024] S16384x2048 1
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  dot_S16384x1024_S1024x1024_S16384x1024_1_0_0_1_n_n_wf : DotDims.WF S16384x1024 S1024x1024 S16384x1024 [1] [0] [0] [1] [] []
  dot_S16384x2048_S2048x3072_S16384x3072_1_0_0_1_n_n_wf : DotDims.WF S16384x2048 S2048x3072 S16384x3072 [1] [0] [0] [1] [] []
  dot_S16384x1024_S1024x3072_S16384x3072_1_0_0_1_n_n_wf : DotDims.WF S16384x1024 S1024x3072 S16384x3072 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x2048_S2048x3072_S16384x3072_1_0_0_1_n_n : DotDims S16384x2048 S2048x3072 S16384x3072 where
  lhsContracting := [1]
  rhsContracting := [0]
  lhsNonContracting := [0]
  rhsNonContracting := [1]
  lhsBatch := []
  rhsBatch := []
  wf := dot_S16384x2048_S2048x3072_S16384x3072_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.KernelDots.lean ====
/-
  The kernel's three matrix products read at an entry. Each `tpu.matmul` of the body contracts the second axis of
  its left operand with the first of its right into a zero accumulator, so at the extended reals entry `(p, q)` of
  the result is the plain sum `Σ_k l (p, k) * r (k, q)`: the contraction's one-axis index set is identified with
  `Fin K` and the two operand indices computed from the dimension numbers.
-/
import proofs.«154949_j75462575390850_1_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Cert.KernelIdeal.Gen Idealize.ShloMosaic Idealize.ShloMosaic.ValueIdx

/-! ## `dot_S128x1024_S1024x1024_S128x1024_1_0_0_1_n_n`: a `[128, 1024]` block times a `[1024, 1024]` matrix -/

theorem lhsD_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhsD_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhsD_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhsD_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- Into a zero accumulator, entry `(p, q)` of the product is `Σ_k l (p, k) * r (k, q)`. -/
theorem matmulD_apply (l : FVec Ideal S128x1024 .bf16) (r : FVec Ideal S1024x1024 .bf16) (p : Fin 128) (q : Fin 1024) :
    FloatOps.matmul dot_S128x1024_S1024x1024_S128x1024_1_0_0_1_n_n none l r (constant S128x1024 .f32 0x00000000#32) (ix2 p q)
      = ∑ k : Fin 1024, l (ix2 p k) * r (ix2 k q) := by
  refine (Ideal.matmul_constant_zero_apply dot_S128x1024_S1024x1024_S128x1024_1_0_0_1_n_n none l r (ix2 p q)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k := funext fun a => Fin.ext (by
    match a with
    | ⟨0, _⟩ => exact lhsD_0 _ _
    | ⟨1, _⟩ => exact (lhsD_1 _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q := funext fun a => Fin.ext (by
    match a with
    | ⟨0, _⟩ => exact (rhsD_0 _ _).trans hk
    | ⟨1, _⟩ => exact rhsD_1 _ _)
  rw [el, er]

/-! ## `dot_S128x2048_S2048x3072_S128x3072_1_0_0_1_n_n`: a `[128, 2048]` block times a `[2048, 3072]` matrix -/

theorem lhsI_0 (i : S128x3072.Idx) (q : dot_S128x2048_S2048x3072_S128x3072_1_0_0_1_n_n.contr.Idx) :
    (dot_S128x2048_S2048x3072_S128x3072_1_0_0_1_n_n.lhsIdx i q 0).val = (i 0).val := by
  unfold DotDims.lhsIdx
  rw [dif_neg (show ¬(0 : Fin S128x2048.rank) ∈ dot_S128x2048_S2048x3072_S128x3072_1_0_0_1_n_n.lhsBatch by decide), dif_pos (show (0 : Fin S128x2048.rank) ∈ dot_S128x2048_S2048x3072_S128x3072_1_0_0_1_n_n.lhsNonContracting by decide)]
  rfl
theorem lhsI_1 (i : S128x3072.Idx) (q : dot_S128x2048_S2048x3072_S128x3072_1_0_0_1_n_n.contr.Idx) :
    (dot_S128x2048_S2048x3072_S128x3072_1_0_0_1_n_n.lhsIdx i q 1).val = (q ⟨0, by decide⟩).val :=
  dot_S128x2048_S2048x3072_S128x3072_1_0_0_1_n_n.lhsIdx_val_of_single rfl i q
theorem rhsI_0 (i : S128x3072.Idx) (q : dot_S128x2048_S2048x3072_S128x3072_1_0_0_1_n_n.contr.Idx) :
    (dot_S128x2048_S2048x3072_S128x3072_1_0_0_1_n_n.rhsIdx i q 0).val = (q ⟨0, by decide⟩).val :=
  dot_S128x2048_S2048x3072_S128x3072_1_0_0_1_n_n.rhsIdx_val_of_single rfl i q
theorem rhsI_1 (i : S128x3072.Idx) (q : dot_S128x2048_S2048x3072_S128x3072_1_0_0_1_n_n.contr.Idx) :
    (dot_S128x2048_S2048x3072_S128x3072_1_0_0_1_n_n.rhsIdx i q 1).val = (i 1).val := by
  unfold DotDims.rhsIdx
  rw [dif_neg (show ¬(1 : Fin S2048x3072.rank) ∈ dot_S128x2048_S2048x3072_S128x3072_1_0_0_1_n_n.rhsBatch by decide), dif_pos (show (1 : Fin S2048x3072.rank) ∈ dot_S128x2048_S2048x3072_S128x3072_1_0_0_1_n_n.rhsNonContracting by decide)]
  rfl

/-- Into a zero accumulator, entry `(p, q)` of the product is `Σ_k l (p, k) * r (k, q)`. -/
theorem matmulI_apply (l : FVec Ideal S128x2048 .bf16) (r : FVec Ideal S2048x3072 .bf16) (p : Fin 128) (q : Fin 3072) :
    FloatOps.matmul dot_S128x2048_S2048x3072_S128x3072_1_0_0_1_n_n none l r (constant S128x3072 .f32 0x00000000#32) (ix2 p q)
      = ∑ k : Fin 2048, l (ix2 p k) * r (ix2 k q) := by
  refine (Ideal.matmul_constant_zero_apply dot_S128x2048_S2048x3072_S128x3072_1_0_0_1_n_n none l r (ix2 p q)).trans ?_
  rw [← Equiv.sum_comp (contrEquiv1 dot_S128x2048_S2048x3072_S128x3072_1_0_0_1_n_n 2048 rfl rfl).symm]
  refine Finset.sum_congr rfl fun k _ => ?_
  have hk := contrEquiv1_symm_val dot_S128x2048_S2048x3072_S128x3072_1_0_0_1_n_n 2048 rfl rfl k
  have el : dot_S128x2048_S2048x3072_S128x3072_1_0_0_1_n_n.lhsIdx (ix2 p q) ((contrEquiv1 dot_S128x2048_S2048x3072_S128x3072_1_0_0_1_n_n 2048 rfl rfl).symm k) = ix2 p k := funext fun a => Fin.ext (by
    match a with
    | ⟨0, _⟩ => exact lhsI_0 _ _
    | ⟨1, _⟩ => exact (lhsI_1 _ _).trans hk)
  have er : dot_S128x2048_S2048x3072_S128x3072_1_0_0_1_n_n.rhsIdx (ix2 p q) ((contrEquiv1 dot_S128x2048_S2048x3072_S128x3072_1_0_0_1_n_n 2048 rfl rfl).symm k) = ix2 k q := funext fun a => Fin.ext (by
    match a with
    | ⟨0, _⟩ => exact (rhsI_0 _ _).trans hk
    | ⟨1, _⟩ => exact rhsI_1 _ _)
  rw [el, er]

/-! ## `dot_S128x1024_S1024x3072_S128x3072_1_0_0_1_n_n`: a `[128, 1024]` block times a `[1024, 3072]` matrix -/

theorem lhsH_0 (i : S128x3072.Idx) (q : dot_S128x1024_S1024x3072_S128x3072_1_0_0_1_n_n.contr.Idx) :
    (dot_S128x1024_S1024x3072_S128x3072_1_0_0_1_n_n.lhsIdx i q 0).val = (i 0).val := by
  unfold DotDims.lhsIdx
  rw [dif_neg (show ¬(0 : Fin S128x1024.rank) ∈ dot_S128x1024_S1024x3072_S128x3072_1_0_0_1_n_n.lhsBatch by decide), dif_pos (show (0 : Fin S128x1024.rank) ∈ dot_S128x1024_S1024x3072_S128x3072_1_0_0_1_n_n.lhsNonContracting by decide)]
  rfl
theorem lhsH_1 (i : S128x3072.Idx) (q : dot_S128x1024_S1024x3072_S128x3072_1_0_0_1_n_n.contr.Idx) :
    (dot_S128x1024_S1024x3072_S128x3072_1_0_0_1_n_n.lhsIdx i q 1).val = (q ⟨0, by decide⟩).val :=
  dot_S128x1024_S1024x3072_S128x3072_1_0_0_1_n_n.lhsIdx_val_of_single rfl i q
theorem rhsH_0 (i : S128x3072.Idx) (q : dot_S128x1024_S1024x3072_S128x3072_1_0_0_1_n_n.contr.Idx) :
    (dot_S128x1024_S1024x3072_S128x3072_1_0_0_1_n_n.rhsIdx i q 0).val = (q ⟨0, by decide⟩).val :=
  dot_S128x1024_S1024x3072_S128x3072_1_0_0_1_n_n.rhsIdx_val_of_single rfl i q
theorem rhsH_1 (i : S128x3072.Idx) (q : dot_S128x1024_S1024x3072_S128x3072_1_0_0_1_n_n.contr.Idx) :
    (dot_S128x1024_S1024x3072_S128x3072_1_0_0_1_n_n.rhsIdx i q 1).val = (i 1).val := by
  unfold DotDims.rhsIdx
  rw [dif_neg (show ¬(1 : Fin S1024x3072.rank) ∈ dot_S128x1024_S1024x3072_S128x3072_1_0_0_1_n_n.rhsBatch by decide), dif_pos (show (1 : Fin S1024x3072.rank) ∈ dot_S128x1024_S1024x3072_S128x3072_1_0_0_1_n_n.rhsNonContracting by decide)]
  rfl

/-- Into a zero accumulator, entry `(p, q)` of the product is `Σ_k l (p, k) * r (k, q)`. -/
theorem matmulH_apply (l : FVec Ideal S128x1024 .bf16) (r : FVec Ideal S1024x3072 .bf16) (p : Fin 128) (q : Fin 3072) :
    FloatOps.matmul dot_S128x1024_S1024x3072_S128x3072_1_0_0_1_n_n none l r (constant S128x3072 .f32 0x00000000#32) (ix2 p q)
      = ∑ k : Fin 1024, l (ix2 p k) * r (ix2 k q) := by
  refine (Ideal.matmul_constant_zero_apply dot_S128x1024_S1024x3072_S128x3072_1_0_0_1_n_n none l r (ix2 p q)).trans ?_
  rw [← Equiv.sum_comp (contrEquiv1 dot_S128x1024_S1024x3072_S128x3072_1_0_0_1_n_n 1024 rfl rfl).symm]
  refine Finset.sum_congr rfl fun k _ => ?_
  have hk := contrEquiv1_symm_val dot_S128x1024_S1024x3072_S128x3072_1_0_0_1_n_n 1024 rfl rfl k
  have el : dot_S128x1024_S1024x3072_S128x3072_1_0_0_1_n_n.lhsIdx (ix2 p q) ((contrEquiv1 dot_S128x1024_S1024x3072_S128x3072_1_0_0_1_n_n 1024 rfl rfl).symm k) = ix2 p k := funext fun a => Fin.ext (by
    match a with
    | ⟨0, _⟩ => exact lhsH_0 _ _
    | ⟨1, _⟩ => exact (lhsH_1 _ _).trans hk)
  have er : dot_S128x1024_S1024x3072_S128x3072_1_0_0_1_n_n.rhsIdx (ix2 p q) ((contrEquiv1 dot_S128x1024_S1024x3072_S128x3072_1_0_0_1_n_n 1024 rfl rfl).symm k) = ix2 k q := funext fun a => Fin.ext (by
    match a with
    | ⟨0, _⟩ => exact (rhsH_0 _ _).trans hk
    | ⟨1, _⟩ => exact rhsH_1 _ _)
  rw [el, er]

end Cert.KernelIdeal.Dots

end
-- ==== Proof.Cell.lean ====
/-
  The mathematics both programs compute, for ONE batch row, on the extended reals.

  A row of the batch carries six vectors of length 1024: the observation `x`, its mask `mk`, the time gap `d`, the last
  observed value `lst`, the empirical mean `mean` and the hidden state `hs`. The cell is

    decay gates     dx = exp (-(max (d · Wx + bx) 0)),   dh = exp (-(max (d · Wh + bh) 0))
    imputed input   xt = mk * x + (1 - mk) * (dx * lst + (1 - dx) * mean)
    decayed state   h  = dh * hs
    gate inputs     gi = [xt, mk] · Wi + bi   (length 3072),   gh = h · Wr + br   (length 3072)
    reset, update   r  = σ (gi₀ + gh₀),   z = σ (gi₁ + gh₁)          (the three thirds of the 3072 columns)
    candidate       n  = tanh (gi₂ + r * gh₂)
    result          (1 - z) * n + z * h

  with σ x = 1 / (1 + exp (-x)) and every product `v · W` the sum over the contracted coordinate. Nothing here is
  rearranged between the two programs: the same sums in the same grouping, so no law of the extended reals beyond
  `0 - a = -a` is needed, and no finiteness.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.GruD

open Idealize.ShloMosaic Idealize.ShloMosaic.ValueIdx

/-! ## Two float words -/

/-- The float word `0x3F800000` denotes the real number one. -/
theorem ofBits_one_f32 : Ideal.ofBits .f32 0x3F800000#32 = 1 := by
  simp [Ideal.ofBits, Ideal.ieee]
  rw [← EReal.coe_mul]
  norm_num

/-- Subtracting from zero is negation on the extended reals. -/
theorem zero_sub_ereal (a : EReal) : (0 : EReal) - a = -a := by rw [sub_eq_add_neg, zero_add]

/-! ## The pieces of the cell -/

/-- A decay gate of a pre-activation `s`: `exp (-(max s 0))`, in (0, 1] for real `s`. -/
def decay (s : EReal) : EReal := Ideal.exp (-(max s 0))

/-- A row times a matrix plus a bias, at output coordinate `n`: `Σ_k v k * w k n + bias n`. -/
def affine {K N : ℕ} (v : Fin K → EReal) (w : Fin K → Fin N → EReal) (bias : Fin N → EReal) (n : Fin N) : EReal :=
  (∑ k : Fin K, v k * w k n) + bias n

/-- The masked blend of an observation with its decayed imputation. -/
def blend (mk x lst mean dx : EReal) : EReal := mk * x + (1 - mk) * (dx * lst + (1 - dx) * mean)

/-- Two rows of length 1024 laid end to end. -/
def joined (a b : Fin 1024 → EReal) (k : Fin 2048) : EReal :=
  if h : k.val < 1024 then a ⟨k.val, h⟩ else b ⟨k.val - 1024, by have := k.isLt; omega⟩

/-- Column `j` of the first, second and third block of 1024 among 3072 columns. -/
def col0 (j : Fin 1024) : Fin 3072 := ⟨j.val, by have := j.isLt; omega⟩
def col1 (j : Fin 1024) : Fin 3072 := ⟨1024 + j.val, by have := j.isLt; omega⟩
def col2 (j : Fin 1024) : Fin 3072 := ⟨2048 + j.val, by have := j.isLt; omega⟩

/-- The gated recurrent update from the two rows of gate inputs `gi`, `gh` and the decayed state `h`. -/
def gru (gi gh : Fin 3072 → EReal) (h : Fin 1024 → EReal) (j : Fin 1024) : EReal :=
  (1 - Ideal.logistic (gi (col1 j) + gh (col1 j)))
      * Ideal.tanh (gi (col2 j) + Ideal.logistic (gi (col0 j) + gh (col0 j)) * gh (col2 j))
    + Ideal.logistic (gi (col1 j) + gh (col1 j)) * h j

/-- The logistic function is the quotient `1 / (1 + exp (-x))`. -/
theorem logistic_eq (x : EReal) : Ideal.logistic x = Ideal.div 1 (1 + Ideal.exp (-x)) := rfl

/-! ## The three thirds of 3072 columns, and two halves joined, read at an entry (any number of rows) -/

section Layout
variable {n0 : ℕ}

/-- Columns `0 … 1023` of a `[n0, 3072]` array. -/
theorem third0_apply (X : (⟨2, ![n0, 3072]⟩ : Shape).Idx → EReal)
    (h : (⟨2, ![n0, 3072]⟩ : Shape).Slices ![0, 0] ⟨2, ![n0, 1024]⟩) (a : Fin n0) (j : Fin 1024) :
    extractStridedSlice ⟨2, ![n0, 1024]⟩ ![0, 0] X h (ix2 a j) = X (ix2 a (col0 j)) :=
  slice2_axis1_apply 0 X h a j (col0 j) (Nat.zero_add _).symm

/-- Columns `1024 … 2047`. -/
theorem third1_apply (X : (⟨2, ![n0, 3072]⟩ : Shape).Idx → EReal)
    (h : (⟨2, ![n0, 3072]⟩ : Shape).Slices ![0, 1024] ⟨2, ![n0, 1024]⟩) (a : Fin n0) (j : Fin 1024) :
    extractStridedSlice ⟨2, ![n0, 1024]⟩ ![0, 1024] X h (ix2 a j) = X (ix2 a (col1 j)) :=
  slice2_axis1_apply 1024 X h a j (col1 j) rfl

/-- Columns `2048 … 3071`. -/
theorem third2_apply (X : (⟨2, ![n0, 3072]⟩ : Shape).Idx → EReal)
    (h : (⟨2, ![n0, 3072]⟩ : Shape).Slices ![0, 2048] ⟨2, ![n0, 1024]⟩) (a : Fin n0) (j : Fin 1024) :
    extractStridedSlice ⟨2, ![n0, 1024]⟩ ![0, 2048] X h (ix2 a j) = X (ix2 a (col2 j)) :=
  slice2_axis1_apply 2048 X h a j (col2 j) rfl

/-- Two `[n0, 1024]` arrays joined along the columns: row `a` of the result is the two rows laid end to end. -/
theorem concat_apply (A B : (⟨2, ![n0, 1024]⟩ : Shape).Idx → EReal)
    (h : Shape.Concatenates [(⟨2, ![n0, 1024]⟩ : Shape), ⟨2, ![n0, 1024]⟩] ⟨2, ![n0, 2048]⟩ 1) (a : Fin n0) (k : Fin 2048) :
    concatenate ⟨2, ![n0, 2048]⟩ 1 [⟨⟨2, ![n0, 1024]⟩, A⟩, ⟨⟨2, ![n0, 1024]⟩, B⟩] h (ix2 a k)
      = joined (fun j => A (ix2 a j)) (fun j => B (ix2 a j)) k := by
  unfold joined
  by_cases hk : k.val < 1024
  · rw [dif_pos hk]
    exact concatenate_pair_apply_left 1 A B h (ix2 a k) rfl (ix2 a ⟨k.val, hk⟩) (fun b => match b with
      | ⟨0, _⟩ => rfl
      | ⟨1, _⟩ => rfl)
  · rw [dif_neg hk]
    refine concatenate_pair_apply_right 1 A B h (ix2 a k) rfl rfl (ix2 a ⟨k.val - 1024, by have := k.isLt; omega⟩) (fun b hb => ?_) ?_
    · match b with
      | ⟨0, _⟩ => rfl
      | ⟨1, _⟩ => exact absurd rfl hb
    · show k.val - 1024 + 1024 = k.val
      omega

end Layout

/-! ## The cell on a row -/

section Row

variable (x mk d lst mean hs : Fin 1024 → EReal)
variable (wx : Fin 1024 → Fin 1024 → EReal) (bx : Fin 1024 → EReal)
variable (wh : Fin 1024 → Fin 1024 → EReal) (bh : Fin 1024 → EReal)
variable (wi : Fin 2048 → Fin 3072 → EReal) (bi : Fin 3072 → EReal)
variable (wr : Fin 1024 → Fin 3072 → EReal) (br : Fin 3072 → EReal)

/-- The imputed input row. -/
def imputed (j : Fin 1024) : EReal := blend (mk j) (x j) (lst j) (mean j) (decay (affine d wx bx j))

/-- The decayed hidden state row. -/
def decayed (j : Fin 1024) : EReal := decay (affine d wh bh j) * hs j

/-- The cell's result row. -/
def cell (j : Fin 1024) : EReal :=
  gru (affine (joined (imputed x mk d lst mean wx bx) mk) wi bi) (affine (decayed d hs wh bh) wr br) (decayed d hs wh bh) j

end Row

/-! ## The cell on the whole batch -/

/-- Row `b` of a `[16384, 1024]` array. -/
abbrev row (A : (⟨2, ![16384, 1024]⟩ : Shape).Idx → EReal) (b : Fin 16384) : Fin 1024 → EReal := fun k => A (ix2 b k)

/-- The result array: at `(b, j)`, the cell of row `b` at `j`. The decay weights enter transposed (the layer computes
    `d · Wᵀ`), the other matrices as they are. -/
def G (x mk d lst mean hs : (⟨2, ![16384, 1024]⟩ : Shape).Idx → EReal)
    (gxw : (⟨2, ![1024, 1024]⟩ : Shape).Idx → EReal) (gxb : (⟨1, ![1024]⟩ : Shape).Idx → EReal)
    (ghw : (⟨2, ![1024, 1024]⟩ : Shape).Idx → EReal) (ghb : (⟨1, ![1024]⟩ : Shape).Idx → EReal)
    (wih : (⟨2, ![2048, 3072]⟩ : Shape).Idx → EReal) (whh : (⟨2, ![1024, 3072]⟩ : Shape).Idx → EReal)
    (bih bhh : (⟨1, ![3072]⟩ : Shape).Idx → EReal) : (⟨2, ![16384, 1024]⟩ : Shape).Idx → EReal :=
  fun i => cell (row x ⟨(i 0).val, (i 0).isLt⟩) (row mk ⟨(i 0).val, (i 0).isLt⟩) (row d ⟨(i 0).val, (i 0).isLt⟩)
    (row lst ⟨(i 0).val, (i 0).isLt⟩) (row mean ⟨(i 0).val, (i 0).isLt⟩) (row hs ⟨(i 0).val, (i 0).isLt⟩)
    (fun k j => gxw (ix2 j k)) (fun j => gxb (ix1 j)) (fun k j => ghw (ix2 j k)) (fun j => ghb (ix1 j))
    (fun k n => wih (ix2 k n)) (fun n => bih (ix1 n)) (fun k n => whh (ix2 k n)) (fun n => bhh (ix1 n))
    ⟨(i 1).val, (i 1).isLt⟩

theorem G_apply (x mk d lst mean hs : (⟨2, ![16384, 1024]⟩ : Shape).Idx → EReal)
    (gxw : (⟨2, ![1024, 1024]⟩ : Shape).Idx → EReal) (gxb : (⟨1, ![1024]⟩ : Shape).Idx → EReal)
    (ghw : (⟨2, ![1024, 1024]⟩ : Shape).Idx → EReal) (ghb : (⟨1, ![1024]⟩ : Shape).Idx → EReal)
    (wih : (⟨2, ![2048, 3072]⟩ : Shape).Idx → EReal) (whh : (⟨2, ![1024, 3072]⟩ : Shape).Idx → EReal)
    (bih bhh : (⟨1, ![3072]⟩ : Shape).Idx → EReal) (b : Fin 16384) (j : Fin 1024) :
    G x mk d lst mean hs gxw gxb ghw ghb wih whh bih bhh (ix2 b j)
      = cell (row x b) (row mk b) (row d b) (row lst b) (row mean b) (row hs b)
          (fun k j => gxw (ix2 j k)) (fun j => gxb (ix1 j)) (fun k j => ghw (ix2 j k)) (fun j => ghb (ix1 j))
          (fun k n => wih (ix2 k n)) (fun n => bih (ix1 n)) (fun k n => whh (ix2 k n)) (fun n => bhh (ix1 n)) j := rfl

end Cert.GruD

end
-- ==== Proof.KernelBody.lean ====
/-
  The kernel body's arithmetic read at one entry `(p, q)` of the 128-row block it works on. The body computes the two
  decay gates from the block of time gaps, blends the observations, decays the hidden state, forms the two rows of gate
  inputs by two more matrix products (the first over the blended input and the mask laid end to end) and applies the
  gated update; every operation but the matrix products, the joining and the three column slices acts entry by
  entry, and the format changes are the identity on the extended reals. So entry `(p, q)` of the stored block is the
  cell of row `p` of the six streamed blocks, at `q`, with the weights as the body holds them.
-/
import proofs.«154949_j75462575390850_1_alg».proof.Proof.Gen.KernelIdeal.Skeleton
import proofs.«154949_j75462575390850_1_alg».proof.Proof.KernelDots
import proofs.«154949_j75462575390850_1_alg».proof.Proof.Cell

noncomputable section

open scoped BigOperators

namespace Cert.KernelIdeal.Body

open Cert.KernelIdeal Cert.KernelIdeal.Gen Cert.KernelIdeal.Dots Cert.GruD Idealize.ShloMosaic Idealize.ShloMosaic.ValueIdx

/-- The input decay gate at `(p, q)`: `exp (-(max (Σ_k d (p, k) * w (k, q) + b q) 0))`. -/
theorem gate_apply (v0 : Vec Ideal S128x1024 .f32) (v2 : Vec Ideal S1024x1024 .bf16) (v5 : Vec Ideal S1x1024 .f32)
    (p : Fin 128) (q : Fin 1024) :
    k0_pay2 (F := Ideal) v0 v2 v5 (ix2 p q)
      = decay (affine (fun k => v0 (ix2 p k)) (fun k j => v2 (ix2 k j)) (fun j => v5 (ix2 (0 : Fin 1) j)) q) := by
  simp only [k0_pay2, matmulD_apply, k0_pay1, exp, tanh, logistic, subf, mulf, maximumf, addf, broadcast, shapeCast_self, truncf_apply,
    broadcastTo_1b_ab_apply, Ideal.exp_def, Ideal.tanh_def, Ideal.logistic_def, Ideal.subf_def, Ideal.mulf_def, Ideal.maximumf_def, Ideal.addf_def,
    Ideal.ofBits_def, Ideal.ofBits_zero_f32, ofBits_one_f32, zero_sub_ereal]
  rfl

/-- The state decay gate at `(p, q)`: the same expression over the second pair of weights. -/
theorem gateH_apply (v0 : Vec Ideal S128x1024 .f32) (v14 : Vec Ideal S1024x1024 .bf16) (v17 : Vec Ideal S1x1024 .f32)
    (p : Fin 128) (q : Fin 1024) :
    k0_pay3 (F := Ideal) v0 v14 v17 (ix2 p q)
      = decay (affine (fun k => v0 (ix2 p k)) (fun k j => v14 (ix2 k j)) (fun j => v17 (ix2 (0 : Fin 1) j)) q) := by
  simp only [k0_pay3, matmulD_apply, k0_pay1, exp, tanh, logistic, subf, mulf, maximumf, addf, broadcast, shapeCast_self, truncf_apply,
    broadcastTo_1b_ab_apply, Ideal.exp_def, Ideal.tanh_def, Ideal.logistic_def, Ideal.subf_def, Ideal.mulf_def, Ideal.maximumf_def, Ideal.addf_def,
    Ideal.ofBits_def, Ideal.ofBits_zero_f32, ofBits_one_f32, zero_sub_ereal]
  rfl

/-- Mask times observation. -/
theorem obs_apply (v26 v27 : Vec Ideal S128x1024 .f32) (p : Fin 128) (q : Fin 1024) :
    k0_pay4 (F := Ideal) v26 v27 (ix2 p q) = v27 (ix2 p q) * v26 (ix2 p q) := rfl

/-- One minus the mask. -/
theorem unobs_apply (v27 : Vec Ideal S128x1024 .f32) (p : Fin 128) (q : Fin 1024) :
    k0_pay5 (F := Ideal) v27 (ix2 p q) = 1 - v27 (ix2 p q) := by
  simp only [k0_pay5, k0_pay1, exp, tanh, logistic, subf, mulf, maximumf, addf, broadcast, shapeCast_self, truncf_apply,
    broadcastTo_1b_ab_apply, Ideal.exp_def, Ideal.tanh_def, Ideal.logistic_def, Ideal.subf_def, Ideal.mulf_def, Ideal.maximumf_def, Ideal.addf_def,
    Ideal.ofBits_def, Ideal.ofBits_zero_f32, ofBits_one_f32, zero_sub_ereal]

/-- The input decay gate times the last observation. -/
theorem last_apply (v0 : Vec Ideal S128x1024 .f32) (v2 : Vec Ideal S1024x1024 .bf16) (v5 : Vec Ideal S1x1024 .f32)
    (v28 : Vec Ideal S128x1024 .f32) (p : Fin 128) (q : Fin 1024) :
    k0_pay6 (F := Ideal) v0 v2 v5 v28 (ix2 p q) = k0_pay2 (F := Ideal) v0 v2 v5 (ix2 p q) * v28 (ix2 p q) := rfl

/-- The rest of the body from its seven earlier values: the blend, the decayed state, the two rows of gate inputs and
    the gated update, at `(p, q)`. -/
theorem tail_apply (v13 v25 : FVec Ideal S128x1024 .f32) (v27 v29 : Vec Ideal S128x1024 .f32) (v30 v32 v33 : FVec Ideal S128x1024 .f32)
    (v40 : Vec Ideal S128x1024 .f32) (v44 : Vec Ideal S2048x3072 .bf16) (v47 : Vec Ideal S1x3072 .f32)
    (v52 : Vec Ideal S1024x3072 .bf16) (v55 : Vec Ideal S1x3072 .f32) (p : Fin 128) (q : Fin 1024) :
    k0_pay7 (F := Ideal) v13 v25 v27 v29 v30 v32 v33 v40 v44 v47 v52 v55 (ix2 p q)
      = gru (affine (joined (fun k => v30 (ix2 p k) + v32 (ix2 p k) * (v33 (ix2 p k) + (1 - v13 (ix2 p k)) * v29 (ix2 p k)))
                (fun k => v27 (ix2 p k))) (fun k n => v44 (ix2 k n)) (fun n => v47 (ix2 (0 : Fin 1) n)))
            (affine (fun k => v25 (ix2 p k) * v40 (ix2 p k)) (fun k n => v52 (ix2 k n)) (fun n => v55 (ix2 (0 : Fin 1) n)))
            (fun k => v25 (ix2 p k) * v40 (ix2 p k)) q := by
  simp only [k0_pay7, matmulI_apply, matmulH_apply, third0_apply, third1_apply, third2_apply, concat_apply, k0_pay1, exp, tanh, logistic, subf, mulf, maximumf, addf, broadcast, shapeCast_self, truncf_apply,
    broadcastTo_1b_ab_apply, Ideal.exp_def, Ideal.tanh_def, Ideal.logistic_def, Ideal.subf_def, Ideal.mulf_def, Ideal.maximumf_def, Ideal.addf_def,
    Ideal.ofBits_def, Ideal.ofBits_zero_f32, ofBits_one_f32, zero_sub_ereal]
  rfl

/-- THE STORED BLOCK AT AN ENTRY: with the seven earlier values put in, entry `(p, q)` of what the body stores is the
    cell of row `p` of the six streamed blocks at `q`, over the weights and biases as the body loads them. -/
theorem body_apply (x0 x1 x2 x3 x4 x5 : Vec Ideal S128x1024 .f32) (x6 : Vec Ideal S1024x1024 .bf16) (x7 : Vec Ideal S1x1024 .f32)
    (x8 : Vec Ideal S1024x1024 .bf16) (x9 : Vec Ideal S1x1024 .f32) (x10 : Vec Ideal S2048x3072 .bf16) (x11 : Vec Ideal S1x3072 .f32)
    (x12 : Vec Ideal S1024x3072 .bf16) (x13 : Vec Ideal S1x3072 .f32) (p : Fin 128) (q : Fin 1024) :
    k0_pay7 (F := Ideal) (k0_pay2 x2 x6 x7) (k0_pay3 x2 x8 x9) x1 x4 (k0_pay4 x0 x1) (k0_pay5 x1) (k0_pay6 x2 x6 x7 x3) x5 x10 x11 x12 x13 (ix2 p q)
      = cell (fun k => x0 (ix2 p k)) (fun k => x1 (ix2 p k)) (fun k => x2 (ix2 p k)) (fun k => x3 (ix2 p k))
          (fun k => x4 (ix2 p k)) (fun k => x5 (ix2 p k))
          (fun k j => x6 (ix2 k j)) (fun j => x7 (ix2 (0 : Fin 1) j)) (fun k j => x8 (ix2 k j)) (fun j => x9 (ix2 (0 : Fin 1) j))
          (fun k n => x10 (ix2 k n)) (fun n => x11 (ix2 (0 : Fin 1) n)) (fun k n => x12 (ix2 k n)) (fun n => x13 (ix2 (0 : Fin 1) n)) q := by
  refine (tail_apply _ _ _ _ _ _ _ _ _ _ _ _ p q).trans ?_
  simp only [gate_apply, gateH_apply, obs_apply, unobs_apply, last_apply]
  rfl

end Cert.KernelIdeal.Body

end
-- ==== Proof.KernelValue.lean ====
/-
  From blocks to the array. The grid has 128 points; point `t` streams rows `128 t … 128 t + 127` of the six batch
  arrays, holds the eight parameter arrays whole (the decay weights transposed by the host beforehand, the biases as
  one row each, the format changes the identity on the extended reals), and writes rows `128 t … 128 t + 127` of the
  result. Entry `(p, q)` of what it writes is the cell of row `128 t + p` of the arguments at `q`; the 128 blocks tile
  the `[16384, 1024]` result, so after the run the result array is the cell on the whole batch.
-/
import proofs.«154949_j75462575390850_1_alg».proof.Proof.Gen.KernelIdeal.Value
import proofs.«154949_j75462575390850_1_alg».proof.Proof.KernelBody
import Idealize.ShloMosaic.Lib.StableHlo.Run
import Idealize.ShloMosaic.Lib.ValueLayout

noncomputable section

open scoped BigOperators

namespace Cert.KernelIdeal.Whole

open Cert.KernelIdeal Cert.KernelIdeal.Gen Cert.KernelIdeal.Body Cert.GruD Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The cell on the whole batch, of the argument arrays as launched. -/
def Gm (c : Dev nD) : S16384x1024.Idx → EReal :=
  G (m ((c : Thread nD τ).loc main_arg0) : S16384x1024.Idx → EReal) (m ((c : Thread nD τ).loc main_arg1) : S16384x1024.Idx → EReal) (m ((c : Thread nD τ).loc main_arg2) : S16384x1024.Idx → EReal) (m ((c : Thread nD τ).loc main_arg3) : S16384x1024.Idx → EReal) (m ((c : Thread nD τ).loc main_arg4) : S16384x1024.Idx → EReal) (m ((c : Thread nD τ).loc main_arg5) : S16384x1024.Idx → EReal)
    (m ((c : Thread nD τ).loc main_arg6) : S1024x1024.Idx → EReal) (m ((c : Thread nD τ).loc main_arg7) : S1024.Idx → EReal) (m ((c : Thread nD τ).loc main_arg8) : S1024x1024.Idx → EReal) (m ((c : Thread nD τ).loc main_arg9) : S1024.Idx → EReal) (m ((c : Thread nD τ).loc main_arg10) : S2048x3072.Idx → EReal) (m ((c : Thread nD τ).loc main_arg11) : S1024x3072.Idx → EReal) (m ((c : Thread nD τ).loc main_arg12) : S3072.Idx → EReal) (m ((c : Thread nD τ).loc main_arg13) : S3072.Idx → EReal)

/-! ## What the region finds in the arrays the host wrote -/

theorem V_v1 (c : Dev nD) : (V m c main_v1 : S1024x1024.Idx → EReal)
    = truncf (F := Ideal) .bf16 (transpose S1024x1024 [1, 0] (m ((c : Thread nD τ).loc main_arg6) : S1024x1024.Idx → EReal) Facts₀.transposes_S1024x1024_S1024x1024_1_0) Facts₀.bitsLt_bf16_f32 := by
  dsimp only [Gen.V, Gen.hostOps0]; after_results <;> rfl
theorem V_v3 (c : Dev nD) : (V m c main_v3 : S1024x1024.Idx → EReal)
    = truncf (F := Ideal) .bf16 (transpose S1024x1024 [1, 0] (m ((c : Thread nD τ).loc main_arg8) : S1024x1024.Idx → EReal) Facts₀.transposes_S1024x1024_S1024x1024_1_0) Facts₀.bitsLt_bf16_f32 := by
  dsimp only [Gen.V, Gen.hostOps0]; after_results <;> rfl
theorem V_v4 (c : Dev nD) : (V m c main_v4 : S2048x3072.Idx → EReal)
    = truncf (F := Ideal) .bf16 (m ((c : Thread nD τ).loc main_arg10) : S2048x3072.Idx → EReal) Facts₀.bitsLt_bf16_f32 := by
  dsimp only [Gen.V, Gen.hostOps0]; after_results <;> rfl
theorem V_v5 (c : Dev nD) : (V m c main_v5 : S1024x3072.Idx → EReal)
    = truncf (F := Ideal) .bf16 (m ((c : Thread nD τ).loc main_arg11) : S1024x3072.Idx → EReal) Facts₀.bitsLt_bf16_f32 := by
  dsimp only [Gen.V, Gen.hostOps0]; after_results <;> rfl
theorem V_v6 (c : Dev nD) : (V m c main_v6 : S1x1024.Idx → EReal)
    = shapeCast S1x1024 (m ((c : Thread nD τ).loc main_arg7) : S1024.Idx → EReal) Facts₀.shapeCasts_S1024_S1x1024 := by
  dsimp only [Gen.V, Gen.hostOps0]; after_results <;> rfl
theorem V_v7 (c : Dev nD) : (V m c main_v7 : S1x1024.Idx → EReal)
    = shapeCast S1x1024 (m ((c : Thread nD τ).loc main_arg9) : S1024.Idx → EReal) Facts₀.shapeCasts_S1024_S1x1024 := by
  dsimp only [Gen.V, Gen.hostOps0]; after_results <;> rfl
theorem V_v8 (c : Dev nD) : (V m c main_v8 : S1x3072.Idx → EReal)
    = shapeCast S1x3072 (m ((c : Thread nD τ).loc main_arg12) : S3072.Idx → EReal) Facts₀.shapeCasts_S3072_S1x3072 := by
  dsimp only [Gen.V, Gen.hostOps0]; after_results <;> rfl
theorem V_v9 (c : Dev nD) : (V m c main_v9 : S1x3072.Idx → EReal)
    = shapeCast S1x3072 (m ((c : Thread nD τ).loc main_arg13) : S3072.Idx → EReal) Facts₀.shapeCasts_S3072_S1x3072 := by
  dsimp only [Gen.V, Gen.hostOps0]; after_results <;> rfl

/-! ## The index maps, decided over the 128 points -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-! ## Each window's block read at an entry -/

/-- Window 0's block at point `t` is rows `128 t … 128 t + 127` of its argument. -/
theorem stream0_apply (c : Dev nD) (t : Fin cfg0.N) (p : Fin 128) (b : Fin 16384) (hb : b.val = t.val * 128 + p.val) (k : Fin 1024) :
    (iblk m c 0 t : Vec Ideal S128x1024 .f32) (ix2 p k) = (m ((c : Thread nD τ).loc main_arg0) : S16384x1024.Idx → EReal) (ix2 b k) := by
  obtain ⟨e0, e1⟩ := idx0 t
  unfold iblk
  rw [View.read_apply]
  show V m c main_arg0 _ = _
  rw [V_main_arg0]
  refine congrArg _ (funext fun a => Fin.ext ?_)
  match a with
  | ⟨0, _⟩ => show win0_0.index t (0 : Fin 2) * 128 + 1 * p.val = b.val; rw [e0, hb]; omega
  | ⟨1, _⟩ => show win0_0.index t (1 : Fin 2) * 1024 + 1 * k.val = k.val; rw [e1]; omega

/-- Window 1's block at point `t` is rows `128 t … 128 t + 127` of its argument. -/
theorem stream1_apply (c : Dev nD) (t : Fin cfg0.N) (p : Fin 128) (b : Fin 16384) (hb : b.val = t.val * 128 + p.val) (k : Fin 1024) :
    (iblk m c 1 t : Vec Ideal S128x1024 .f32) (ix2 p k) = (m ((c : Thread nD τ).loc main_arg1) : S16384x1024.Idx → EReal) (ix2 b k) := by
  obtain ⟨e0, e1⟩ := idx1 t
  unfold iblk
  rw [View.read_apply]
  show V m c main_arg1 _ = _
  rw [V_main_arg1]
  refine congrArg _ (funext fun a => Fin.ext ?_)
  match a with
  | ⟨0, _⟩ => show win0_1.index t (0 : Fin 2) * 128 + 1 * p.val = b.val; rw [e0, hb]; omega
  | ⟨1, _⟩ => show win0_1.index t (1 : Fin 2) * 1024 + 1 * k.val = k.val; rw [e1]; omega

/-- Window 2's block at point `t` is rows `128 t … 128 t + 127` of its argument. -/
theorem stream2_apply (c : Dev nD) (t : Fin cfg0.N) (p : Fin 128) (b : Fin 16384) (hb : b.val = t.val * 128 + p.val) (k : Fin 1024) :
    (iblk m c 2 t : Vec Ideal S128x1024 .f32) (ix2 p k) = (m ((c : Thread nD τ).loc main_arg2) : S16384x1024.Idx → EReal) (ix2 b k) := by
  obtain ⟨e0, e1⟩ := idx2 t
  unfold iblk
  rw [View.read_apply]
  show V m c main_arg2 _ = _
  rw [V_main_arg2]
  refine congrArg _ (funext fun a => Fin.ext ?_)
  match a with
  | ⟨0, _⟩ => show win0_2.index t (0 : Fin 2) * 128 + 1 * p.val = b.val; rw [e0, hb]; omega
  | ⟨1, _⟩ => show win0_2.index t (1 : Fin 2) * 1024 + 1 * k.val = k.val; rw [e1]; omega

/-- Window 3's block at point `t` is rows `128 t … 128 t + 127` of its argument. -/
theorem stream3_apply (c : Dev nD) (t : Fin cfg0.N) (p : Fin 128) (b : Fin 16384) (hb : b.val = t.val * 128 + p.val) (k : Fin 1024) :
    (iblk m c 3 t : Vec Ideal S128x1024 .f32) (ix2 p k) = (m ((c : Thread nD τ).loc main_arg3) : S16384x1024.Idx → EReal) (ix2 b k) := by
  obtain ⟨e0, e1⟩ := idx3 t
  unfold iblk
  rw [View.read_apply]
  show V m c main_arg3 _ = _
  rw [V_main_arg3]
  refine congrArg _ (funext fun a => Fin.ext ?_)
  match a with
  | ⟨0, _⟩ => show win0_3.index t (0 : Fin 2) * 128 + 1 * p.val = b.val; rw [e0, hb]; omega
  | ⟨1, _⟩ => show win0_3.index t (1 : Fin 2) * 1024 + 1 * k.val = k.val; rw [e1]; omega

/-- Window 4's block at point `t` is rows `128 t … 128 t + 127` of its argument. -/
theorem stream4_apply (c : Dev nD) (t : Fin cfg0.N) (p : Fin 128) (b : Fin 16384) (hb : b.val = t.val * 128 + p.val) (k : Fin 1024) :
    (iblk m c 4 t : Vec Ideal S128x1024 .f32) (ix2 p k) = (m ((c : Thread nD τ).loc main_arg4) : S16384x1024.Idx → EReal) (ix2 b k) := by
  obtain ⟨e0, e1⟩ := idx4 t
  unfold iblk
  rw [View.read_apply]
  show V m c main_arg4 _ = _
  rw [V_main_arg4]
  refine congrArg _ (funext fun a => Fin.ext ?_)
  match a with
  | ⟨0, _⟩ => show win0_4.index t (0 : Fin 2) * 128 + 1 * p.val = b.val; rw [e0, hb]; omega
  | ⟨1, _⟩ => show win0_4.index t (1 : Fin 2) * 1024 + 1 * k.val = k.val; rw [e1]; omega

/-- Window 5's block at point `t` is rows `128 t … 128 t + 127` of its argument. -/
theorem stream5_apply (c : Dev nD) (t : Fin cfg0.N) (p : Fin 128) (b : Fin 16384) (hb : b.val = t.val * 128 + p.val) (k : Fin 1024) :
    (iblk m c 5 t : Vec Ideal S128x1024 .f32) (ix2 p k) = (m ((c : Thread nD τ).loc main_arg5) : S16384x1024.Idx → EReal) (ix2 b k) := by
  obtain ⟨e0, e1⟩ := idx5 t
  unfold iblk
  rw [View.read_apply]
  show V m c main_arg5 _ = _
  rw [V_main_arg5]
  refine congrArg _ (funext fun a => Fin.ext ?_)
  match a with
  | ⟨0, _⟩ => show win0_5.index t (0 : Fin 2) * 128 + 1 * p.val = b.val; rw [e0, hb]; omega
  | ⟨1, _⟩ => show win0_5.index t (1 : Fin 2) * 1024 + 1 * k.val = k.val; rw [e1]; omega

/-- Window 6 holds the whole transposed weight: entry `(k, j)` is the argument's `(j, k)`. -/
theorem w6_apply (c : Dev nD) (t : Fin cfg0.N) (k j : Fin 1024) :
    (iblk m c 6 t : Vec Ideal S1024x1024 .bf16) (ix2 k j) = (m ((c : Thread nD τ).loc main_arg6) : S1024x1024.Idx → EReal) (ix2 j k) := by
  obtain ⟨e0, e1⟩ := idx6 t
  unfold iblk
  rw [View.read_apply]
  show V m c main_v1 _ = _
  rw [V_v1]
  have he : ((cfg0.win 6).blk t).view.emb (ix2 k j) = ix2 k j := funext fun ax => Fin.ext (by
    match ax with
    | ⟨0, _⟩ => show win0_6.index t (0 : Fin 2) * 1024 + 1 * (k : Fin 1024).val = (k : Fin 1024).val; rw [e0]; omega
    | ⟨1, _⟩ => show win0_6.index t (1 : Fin 2) * 1024 + 1 * j.val = j.val; rw [e1]; omega)
  rw [he]
  exact transpose_ix2_apply _ _ k j

/-- Window 7 holds the bias as one row. -/
theorem w7_apply (c : Dev nD) (t : Fin cfg0.N) (j : Fin 1024) :
    (iblk m c 7 t : Vec Ideal S1x1024 .f32) (ix2 (0 : Fin 1) j) = (m ((c : Thread nD τ).loc main_arg7) : S1024.Idx → EReal) (ix1 j) := by
  obtain ⟨e0, e1⟩ := idx7 t
  unfold iblk
  rw [View.read_apply]
  show V m c main_v6 _ = _
  rw [V_v6]
  have he : ((cfg0.win 7).blk t).view.emb (ix2 (0 : Fin 1) j) = ix2 (0 : Fin 1) j := funext fun ax => Fin.ext (by
    match ax with
    | ⟨0, _⟩ => show win0_7.index t (0 : Fin 2) * 1 + 1 * ((0 : Fin 1) : Fin 1).val = ((0 : Fin 1) : Fin 1).val; rw [e0]; omega
    | ⟨1, _⟩ => show win0_7.index t (1 : Fin 2) * 1024 + 1 * j.val = j.val; rw [e1]; omega)
  rw [he]
  exact shapeCast_a_1a_apply _ _ (0 : Fin 1) j

/-- Window 8 holds the whole transposed weight: entry `(k, j)` is the argument's `(j, k)`. -/
theorem w8_apply (c : Dev nD) (t : Fin cfg0.N) (k j : Fin 1024) :
    (iblk m c 8 t : Vec Ideal S1024x1024 .bf16) (ix2 k j) = (m ((c : Thread nD τ).loc main_arg8) : S1024x1024.Idx → EReal) (ix2 j k) := by
  obtain ⟨e0, e1⟩ := idx8 t
  unfold iblk
  rw [View.read_apply]
  show V m c main_v3 _ = _
  rw [V_v3]
  have he : ((cfg0.win 8).blk t).view.emb (ix2 k j) = ix2 k j := funext fun ax => Fin.ext (by
    match ax with
    | ⟨0, _⟩ => show win0_8.index t (0 : Fin 2) * 1024 + 1 * (k : Fin 1024).val = (k : Fin 1024).val; rw [e0]; omega
    | ⟨1, _⟩ => show win0_8.index t (1 : Fin 2) * 1024 + 1 * j.val = j.val; rw [e1]; omega)
  rw [he]
  exact transpose_ix2_apply _ _ k j

/-- Window 9 holds the bias as one row. -/
theorem w9_apply (c : Dev nD) (t : Fin cfg0.N) (j : Fin 1024) :
    (iblk m c 9 t : Vec Ideal S1x1024 .f32) (ix2 (0 : Fin 1) j) = (m ((c : Thread nD τ).loc main_arg9) : S1024.Idx → EReal) (ix1 j) := by
  obtain ⟨e0, e1⟩ := idx9 t
  unfold iblk
  rw [View.read_apply]
  show V m c main_v7 _ = _
  rw [V_v7]
  have he : ((cfg0.win 9).blk t).view.emb (ix2 (0 : Fin 1) j) = ix2 (0 : Fin 1) j := funext fun ax => Fin.ext (by
    match ax with
    | ⟨0, _⟩ => show win0_9.index t (0 : Fin 2) * 1 + 1 * ((0 : Fin 1) : Fin 1).val = ((0 : Fin 1) : Fin 1).val; rw [e0]; omega
    | ⟨1, _⟩ => show win0_9.index t (1 : Fin 2) * 1024 + 1 * j.val = j.val; rw [e1]; omega)
  rw [he]
  exact shapeCast_a_1a_apply _ _ (0 : Fin 1) j

/-- Window 10 holds the whole weight as it is. -/
theorem w10_apply (c : Dev nD) (t : Fin cfg0.N) (k : Fin 2048) (n : Fin 3072) :
    (iblk m c 10 t : Vec Ideal S2048x3072 .bf16) (ix2 k n) = (m ((c : Thread nD τ).loc main_arg10) : S2048x3072.Idx → EReal) (ix2 k n) := by
  obtain ⟨e0, e1⟩ := idx10 t
  unfold iblk
  rw [View.read_apply]
  show V m c main_v4 _ = _
  rw [V_v4]
  have he : ((cfg0.win 10).blk t).view.emb (ix2 k n) = ix2 k n := funext fun ax => Fin.ext (by
    match ax with
    | ⟨0, _⟩ => show win0_10.index t (0 : Fin 2) * 2048 + 1 * (k : Fin 2048).val = (k : Fin 2048).val; rw [e0]; omega
    | ⟨1, _⟩ => show win0_10.index t (1 : Fin 2) * 3072 + 1 * n.val = n.val; rw [e1]; omega)
  rw [he]
  rfl

/-- Window 11 holds the bias as one row. -/
theorem w11_apply (c : Dev nD) (t : Fin cfg0.N) (j : Fin 3072) :
    (iblk m c 11 t : Vec Ideal S1x3072 .f32) (ix2 (0 : Fin 1) j) = (m ((c : Thread nD τ).loc main_arg12) : S3072.Idx → EReal) (ix1 j) := by
  obtain ⟨e0, e1⟩ := idx11 t
  unfold iblk
  rw [View.read_apply]
  show V m c main_v8 _ = _
  rw [V_v8]
  have he : ((cfg0.win 11).blk t).view.emb (ix2 (0 : Fin 1) j) = ix2 (0 : Fin 1) j := funext fun ax => Fin.ext (by
    match ax with
    | ⟨0, _⟩ => show win0_11.index t (0 : Fin 2) * 1 + 1 * ((0 : Fin 1) : Fin 1).val = ((0 : Fin 1) : Fin 1).val; rw [e0]; omega
    | ⟨1, _⟩ => show win0_11.index t (1 : Fin 2) * 3072 + 1 * j.val = j.val; rw [e1]; omega)
  rw [he]
  exact shapeCast_a_1a_apply _ _ (0 : Fin 1) j

/-- Window 12 holds the whole weight as it is. -/
theorem w12_apply (c : Dev nD) (t : Fin cfg0.N) (k : Fin 1024) (n : Fin 3072) :
    (iblk m c 12 t : Vec Ideal S1024x3072 .bf16) (ix2 k n) = (m ((c : Thread nD τ).loc main_arg11) : S1024x3072.Idx → EReal) (ix2 k n) := by
  obtain ⟨e0, e1⟩ := idx12 t
  unfold iblk
  rw [View.read_apply]
  show V m c main_v5 _ = _
  rw [V_v5]
  have he : ((cfg0.win 12).blk t).view.emb (ix2 k n) = ix2 k n := funext fun ax => Fin.ext (by
    match ax with
    | ⟨0, _⟩ => show win0_12.index t (0 : Fin 2) * 1024 + 1 * (k : Fin 1024).val = (k : Fin 1024).val; rw [e0]; omega
    | ⟨1, _⟩ => show win0_12.index t (1 : Fin 2) * 3072 + 1 * n.val = n.val; rw [e1]; omega)
  rw [he]
  rfl

/-- Window 13 holds the bias as one row. -/
theorem w13_apply (c : Dev nD) (t : Fin cfg0.N) (j : Fin 3072) :
    (iblk m c 13 t : Vec Ideal S1x3072 .f32) (ix2 (0 : Fin 1) j) = (m ((c : Thread nD τ).loc main_arg13) : S3072.Idx → EReal) (ix1 j) := by
  obtain ⟨e0, e1⟩ := idx13 t
  unfold iblk
  rw [View.read_apply]
  show V m c main_v9 _ = _
  rw [V_v9]
  have he : ((cfg0.win 13).blk t).view.emb (ix2 (0 : Fin 1) j) = ix2 (0 : Fin 1) j := funext fun ax => Fin.ext (by
    match ax with
    | ⟨0, _⟩ => show win0_13.index t (0 : Fin 2) * 1 + 1 * ((0 : Fin 1) : Fin 1).val = ((0 : Fin 1) : Fin 1).val; rw [e0]; omega
    | ⟨1, _⟩ => show win0_13.index t (1 : Fin 2) * 3072 + 1 * j.val = j.val; rw [e1]; omega)
  rw [he]
  exact shapeCast_a_1a_apply _ _ (0 : Fin 1) j

/-! ## The block a point writes -/

theorem hz : (![0, 0] : Fin 2 → Nat) = fun _ => 0 := funext fun a => by fin_cases a <;> rfl

/-- Entry `(p, q)` of what point `t` leaves in the output buffer is the cell of row `b = 128 t + p` at `q`. -/
theorem block_eq (c : Dev nD) (t : Fin cfg0.N) (p : Fin 128) (q : Fin 1024) (b : Fin 16384) (hb : b.val = t.val * 128 + p.val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p q) = Gm m c (ix2 b q) := by
  unfold out0_14
  rw [View.canon_unit_zero hz]
  simp only [View.ld_unit_zero (S := S128x1024) hz, View.ld_unit_zero (S := S1024x1024) hz, View.ld_unit_zero (S := S1x1024) hz,
    View.ld_unit_zero (S := S2048x3072) hz, View.ld_unit_zero (S := S1x3072) hz, View.ld_unit_zero (S := S1024x3072) hz]
  refine (body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  unfold Gm
  rw [G_apply]
  simp only [stream0_apply m c t p b hb, stream1_apply m c t p b hb, stream2_apply m c t p b hb, stream3_apply m c t p b hb,
    stream4_apply m c t p b hb, stream5_apply m c t p b hb, w6_apply m c t, w7_apply m c t, w8_apply m c t, w9_apply m c t,
    w10_apply m c t, w11_apply m c t, w12_apply m c t, w13_apply m c t]

/-- WHAT POINT `t` WRITES BACK is block `t` of the cell on the whole batch. -/
theorem flushed_eq (c : Dev nD) (t : Fin cfg0.N) :
    (dats m 0 c).flushed 14 t = ((cfg0.win 14).blk t).view.read (Elt Ideal) (Gm m c) := by
  rw [Cert.KernelIdeal.Value.flushed14]
  obtain ⟨e0, e1⟩ := idx14 t
  have hN : cfg0.N = 128 := N_0
  funext y
  obtain ⟨p, q, rfl⟩ : ∃ (p : Fin 128) (q : Fin 1024), y = ix2 p q := ⟨y 0, y 1, eq_ix2 y⟩
  have hlt : t.val * 128 + p.val < 16384 := by have := t.isLt; have := p.isLt; omega
  refine (block_eq m c t p q ⟨t.val * 128 + p.val, hlt⟩ rfl).trans ?_
  rw [View.read_apply]
  show Gm m c _ = Gm m c _
  refine congrArg (Gm m c) (funext fun a => Fin.ext ?_)
  match a with
  | ⟨0, _⟩ => show t.val * 128 + p.val = win0_14.index t (0 : Fin 2) * 128 + 1 * p.val; rw [e0]; omega
  | ⟨1, _⟩ => show q.val = win0_14.index t (1 : Fin 2) * 1024 + 1 * q.val; rw [e1]; omega

/-- An index of the result is in point `t`'s block iff each coordinate is in the block's range on its axis. -/
theorem mem_blk (t : Fin cfg0.N) (i : S16384x1024.Idx) :
    i ∈ ((cfg0.win 14).blk t).view.set ↔ ∀ a : Fin 2, win0_14.index t a * S128x1024.size a ≤ (i a).val ∧ (i a).val < win0_14.index t a * S128x1024.size a + S128x1024.size a := by
  show i ∈ ((View.whole main_v10).slice (win0_14.rect t)).set ↔ _
  rw [View.set_slice_whole, Rect.mem_set_unit]
  exact Iff.rfl

/-- THE RESULT ARRAY after the run: row `r` lies in the block of point `r / 128`, so the blocks cover the array. -/
theorem final (c : Dev nD) : (dats m 0 c).arrAt 14 cfg0.N = Gm m c :=
  (dats m 0 c).arrAt_eq_of_cover 14 (Gm m c) (fun t _ => flushed_eq m c t) fun i => by
    have hN : cfg0.N = 128 := N_0
    have hi0 : (i 0).val < 16384 := (i 0).isLt
    have hi1 : (i 1).val < 1024 := (i 1).isLt
    have ht : (i 0).val / 128 < cfg0.N := by rw [hN]; omega
    obtain ⟨e0, e1⟩ := idx14 ⟨(i 0).val / 128, ht⟩
    refine ⟨⟨(i 0).val / 128, ht⟩, flush0_14 _, ?_⟩
    rw [mem_blk]
    intro a
    match a with
    | ⟨0, _⟩ => show win0_14.index ⟨(i 0).val / 128, ht⟩ (0 : Fin 2) * 128 ≤ (i 0).val ∧ (i 0).val < win0_14.index ⟨(i 0).val / 128, ht⟩ (0 : Fin 2) * 128 + 128; rw [e0]; show (i 0).val / 128 * 128 ≤ (i 0).val ∧ (i 0).val < (i 0).val / 128 * 128 + 128; omega
    | ⟨1, _⟩ => show win0_14.index ⟨(i 0).val / 128, ht⟩ (1 : Fin 2) * 1024 ≤ (i 1).val ∧ (i 1).val < win0_14.index ⟨(i 0).val / 128, ht⟩ (1 : Fin 2) * 1024 + 1024; rw [e1]; omega

/-! ## The run, read -/

/-- Every execution of the kernel program ends with the result array at the cell on the whole batch, the arguments
    unchanged. -/
theorem run : θ_run defs (onTc (τ := τ) (main (F := Ideal))) ⟨m, fun _ => 0, ρ⟩ fun r => ∀ c : Dev nD,
      r.2.mem ((c : Thread nD τ).loc main_v10) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.KernelIdeal.Whole

end
-- ==== Proof.RefValue.lean ====
/-
  The reference program read at one entry `(b, j)` of its result, stage by stage: the decay gates of row `b` (the
  layer's weights enter transposed, so entry `(b, j)` of `d · Wᵀ` sums `d (b, k) * W (j, k)`), the imputed input and the
  decayed state, the two rows of gate inputs (the first over the imputed input and the mask laid end to end), and the
  gated update with the logistic spelt `1 / (1 + exp (-x))`. Each stage is the corresponding piece of the cell of row `b`,
  so the result array is the cell on the whole batch.
-/
import proofs.«154949_j75462575390850_1_alg».proof.Proof.Gen.ReferenceIdeal.Read
import proofs.«154949_j75462575390850_1_alg».proof.Proof.Cell

noncomputable section

open scoped BigOperators

namespace Cert.ReferenceIdeal.RefValue

open Cert.ReferenceIdeal Cert.ReferenceIdeal.Gen Cert.ReferenceIdeal.Read Cert.GruD Idealize.ShloMosaic Idealize.ShloMosaic.ValueIdx

/-! ## The printed index maps at an index given by its coordinates -/

theorem tr0 (k j : Fin 1024) : idx_main_v0 (ix2 k j) = ix2 j k := funext fun a => Fin.ext (by match a with | ⟨0, _⟩ => rfl | ⟨1, _⟩ => rfl)
theorem tr8 (k j : Fin 1024) : idx_main_v8 (ix2 k j) = ix2 j k := funext fun a => Fin.ext (by match a with | ⟨0, _⟩ => rfl | ⟨1, _⟩ => rfl)
theorem l1 (b : Fin 16384) (j k : Fin 1024) : lidx_main_v1 (ix2 b j) k = ix2 b k := funext fun a => Fin.ext (by match a with | ⟨0, _⟩ => rfl | ⟨1, _⟩ => rfl)
theorem r1 (b : Fin 16384) (j k : Fin 1024) : ridx_main_v1 (ix2 b j) k = ix2 k j := funext fun a => Fin.ext (by match a with | ⟨0, _⟩ => rfl | ⟨1, _⟩ => rfl)
theorem l9 (b : Fin 16384) (j k : Fin 1024) : lidx_main_v9 (ix2 b j) k = ix2 b k := funext fun a => Fin.ext (by match a with | ⟨0, _⟩ => rfl | ⟨1, _⟩ => rfl)
theorem r9 (b : Fin 16384) (j k : Fin 1024) : ridx_main_v9 (ix2 b j) k = ix2 k j := funext fun a => Fin.ext (by match a with | ⟨0, _⟩ => rfl | ⟨1, _⟩ => rfl)
theorem l28 (b : Fin 16384) (n : Fin 3072) (k : Fin 2048) : lidx_main_v28 (ix2 b n) k = ix2 b k := funext fun a => Fin.ext (by match a with | ⟨0, _⟩ => rfl | ⟨1, _⟩ => rfl)
theorem r28 (b : Fin 16384) (n : Fin 3072) (k : Fin 2048) : ridx_main_v28 (ix2 b n) k = ix2 k n := funext fun a => Fin.ext (by match a with | ⟨0, _⟩ => rfl | ⟨1, _⟩ => rfl)
theorem l32 (b : Fin 16384) (n : Fin 3072) (k : Fin 1024) : lidx_main_v32 (ix2 b n) k = ix2 b k := funext fun a => Fin.ext (by match a with | ⟨0, _⟩ => rfl | ⟨1, _⟩ => rfl)
theorem r32 (b : Fin 16384) (n : Fin 3072) (k : Fin 1024) : ridx_main_v32 (ix2 b n) k = ix2 k n := funext fun a => Fin.ext (by match a with | ⟨0, _⟩ => rfl | ⟨1, _⟩ => rfl)
theorem b3 (b : Fin 16384) (j : Fin 1024) : idx_main_v2 (idx_main_v3 (ix2 b j)) = ix1 j := funext fun a => Fin.ext (by match a with | ⟨0, _⟩ => rfl)
theorem b11 (b : Fin 16384) (j : Fin 1024) : idx_main_v10 (idx_main_v11 (ix2 b j)) = ix1 j := funext fun a => Fin.ext (by match a with | ⟨0, _⟩ => rfl)
theorem b30 (b : Fin 16384) (n : Fin 3072) : idx_main_v29 (idx_main_v30 (ix2 b n)) = ix1 n := funext fun a => Fin.ext (by match a with | ⟨0, _⟩ => rfl)
theorem b34 (b : Fin 16384) (n : Fin 3072) : idx_main_v33 (idx_main_v34 (ix2 b n)) = ix1 n := funext fun a => Fin.ext (by match a with | ⟨0, _⟩ => rfl)
theorem s36 (b : Fin 16384) (j : Fin 1024) : idx_main_v36 (ix2 b j) = ix2 b (col0 j) := funext fun a => Fin.ext (by match a with | ⟨0, _⟩ => rfl | ⟨1, _⟩ => rfl)
theorem s37 (b : Fin 16384) (j : Fin 1024) : idx_main_v37 (ix2 b j) = ix2 b (col1 j) := funext fun a => Fin.ext (by match a with | ⟨0, _⟩ => rfl | ⟨1, _⟩ => rfl)
theorem s38 (b : Fin 16384) (j : Fin 1024) : idx_main_v38 (ix2 b j) = ix2 b (col2 j) := funext fun a => Fin.ext (by match a with | ⟨0, _⟩ => rfl | ⟨1, _⟩ => rfl)
theorem s39 (b : Fin 16384) (j : Fin 1024) : idx_main_v39 (ix2 b j) = ix2 b (col0 j) := funext fun a => Fin.ext (by match a with | ⟨0, _⟩ => rfl | ⟨1, _⟩ => rfl)
theorem s40 (b : Fin 16384) (j : Fin 1024) : idx_main_v40 (ix2 b j) = ix2 b (col1 j) := funext fun a => Fin.ext (by match a with | ⟨0, _⟩ => rfl | ⟨1, _⟩ => rfl)
theorem s41 (b : Fin 16384) (j : Fin 1024) : idx_main_v41 (ix2 b j) = ix2 b (col2 j) := funext fun a => Fin.ext (by match a with | ⟨0, _⟩ => rfl | ⟨1, _⟩ => rfl)

/-! ## The stages -/

/-- The input decay gate at `(b, j)`. -/
theorem dx_ref (x2 : (⟨S16384x1024, .f32⟩ : BufTy).Contents (Elt Ideal)) (x6 : (⟨S1024x1024, .f32⟩ : BufTy).Contents (Elt Ideal)) (x7 : (⟨S1024, .f32⟩ : BufTy).Contents (Elt Ideal)) (b : Fin 16384) (j : Fin 1024) :
    val_main_v7 (F := Ideal) x2 x6 x7 (ix2 b j) = decay (affine (row x2 b) (fun k j => x6 (ix2 j k)) (fun j => x7 (ix1 j)) j) := by
  simp only [val_main_v7_apply, val_main_v6_apply, val_main_v5_apply, val_main_v4_apply, val_main_v1_apply, val_main_v0_apply, val_main_v3_apply, val_main_v2_apply, val_main_call0_v0_apply, val_main_call0_cst_apply, l1, r1, tr0, b3, Ideal.hostUnary_exp_def, Ideal.hostUnary_tanh_def, Ideal.hostNegf_def, Ideal.negf_def, Ideal.hostDivf_def, Ideal.maximumf_def, Ideal.addf_def, Ideal.mulf_def, Ideal.subf_def, Ideal.ofBits_def, Ideal.ofBits_zero_f32, ofBits_one_f32]
  rfl

/-- The state decay gate at `(b, j)`. -/
theorem dh_ref (x2 : (⟨S16384x1024, .f32⟩ : BufTy).Contents (Elt Ideal)) (x8 : (⟨S1024x1024, .f32⟩ : BufTy).Contents (Elt Ideal)) (x9 : (⟨S1024, .f32⟩ : BufTy).Contents (Elt Ideal)) (b : Fin 16384) (j : Fin 1024) :
    val_main_v15 (F := Ideal) x2 x8 x9 (ix2 b j) = decay (affine (row x2 b) (fun k j => x8 (ix2 j k)) (fun j => x9 (ix1 j)) j) := by
  simp only [val_main_v15_apply, val_main_v14_apply, val_main_v13_apply, val_main_v12_apply, val_main_v9_apply, val_main_v8_apply, val_main_v11_apply, val_main_v10_apply, val_main_call1_v0_apply, val_main_call1_cst_apply, l9, r9, tr8, b11, Ideal.hostUnary_exp_def, Ideal.hostUnary_tanh_def, Ideal.hostNegf_def, Ideal.negf_def, Ideal.hostDivf_def, Ideal.maximumf_def, Ideal.addf_def, Ideal.mulf_def, Ideal.subf_def, Ideal.ofBits_def, Ideal.ofBits_zero_f32, ofBits_one_f32]
  rfl

/-- The imputed input at `(b, j)`. -/
theorem xt_ref (x0 x1 x2 x3 x4 : (⟨S16384x1024, .f32⟩ : BufTy).Contents (Elt Ideal)) (x6 : (⟨S1024x1024, .f32⟩ : BufTy).Contents (Elt Ideal)) (x7 : (⟨S1024, .f32⟩ : BufTy).Contents (Elt Ideal)) (b : Fin 16384) (j : Fin 1024) :
    val_main_v25 (F := Ideal) x0 x1 x2 x3 x4 x6 x7 (ix2 b j)
      = imputed (row x0 b) (row x1 b) (row x2 b) (row x3 b) (row x4 b) (fun k j => x6 (ix2 j k)) (fun j => x7 (ix1 j)) j := by
  simp only [val_main_v25_apply, val_main_v24_apply, val_main_v23_apply, val_main_v22_apply, val_main_v21_apply, val_main_v20_apply, val_main_cst_0_apply, val_main_v19_apply, val_main_v18_apply, val_main_v17_apply, val_main_cst_apply, val_main_v16_apply, dx_ref, Ideal.hostUnary_exp_def, Ideal.hostUnary_tanh_def, Ideal.hostNegf_def, Ideal.negf_def, Ideal.hostDivf_def, Ideal.maximumf_def, Ideal.addf_def, Ideal.mulf_def, Ideal.subf_def, Ideal.ofBits_def, Ideal.ofBits_zero_f32, ofBits_one_f32]
  rfl

/-- The decayed state at `(b, j)`. -/
theorem h_ref (x2 x5 : (⟨S16384x1024, .f32⟩ : BufTy).Contents (Elt Ideal)) (x8 : (⟨S1024x1024, .f32⟩ : BufTy).Contents (Elt Ideal)) (x9 : (⟨S1024, .f32⟩ : BufTy).Contents (Elt Ideal)) (b : Fin 16384) (j : Fin 1024) :
    val_main_v26 (F := Ideal) x2 x5 x8 x9 (ix2 b j) = decayed (row x2 b) (row x5 b) (fun k j => x8 (ix2 j k)) (fun j => x9 (ix1 j)) j := by
  simp only [val_main_v26_apply, dh_ref, Ideal.hostUnary_exp_def, Ideal.hostUnary_tanh_def, Ideal.hostNegf_def, Ideal.negf_def, Ideal.hostDivf_def, Ideal.maximumf_def, Ideal.addf_def, Ideal.mulf_def, Ideal.subf_def, Ideal.ofBits_def, Ideal.ofBits_zero_f32, ofBits_one_f32]
  rfl

/-- Row `b` of the joined array: the imputed input, then the mask. -/
theorem cat_ref (x0 x1 x2 x3 x4 : (⟨S16384x1024, .f32⟩ : BufTy).Contents (Elt Ideal)) (x6 : (⟨S1024x1024, .f32⟩ : BufTy).Contents (Elt Ideal)) (x7 : (⟨S1024, .f32⟩ : BufTy).Contents (Elt Ideal)) (b : Fin 16384) (k : Fin 2048) :
    val_main_v27 (F := Ideal) x0 x1 x2 x3 x4 x6 x7 (ix2 b k)
      = joined (imputed (row x0 b) (row x1 b) (row x2 b) (row x3 b) (row x4 b) (fun k j => x6 (ix2 j k)) (fun j => x7 (ix1 j))) (row x1 b) k := by
  unfold val_main_v27
  refine (concat_apply _ _ _ b k).trans ?_
  simp only [xt_ref]

/-- The input side's row of gate inputs at `(b, n)`. -/
theorem gi_ref (x0 x1 x2 x3 x4 : (⟨S16384x1024, .f32⟩ : BufTy).Contents (Elt Ideal)) (x6 : (⟨S1024x1024, .f32⟩ : BufTy).Contents (Elt Ideal)) (x7 : (⟨S1024, .f32⟩ : BufTy).Contents (Elt Ideal)) (x10 : (⟨S2048x3072, .f32⟩ : BufTy).Contents (Elt Ideal)) (x12 : (⟨S3072, .f32⟩ : BufTy).Contents (Elt Ideal))
    (b : Fin 16384) (n : Fin 3072) :
    val_main_v31 (F := Ideal) x0 x1 x2 x3 x4 x6 x7 x10 x12 (ix2 b n)
      = affine (joined (imputed (row x0 b) (row x1 b) (row x2 b) (row x3 b) (row x4 b) (fun k j => x6 (ix2 j k)) (fun j => x7 (ix1 j))) (row x1 b))
          (fun k n => x10 (ix2 k n)) (fun n => x12 (ix1 n)) n := by
  simp only [val_main_v31_apply, val_main_v28_apply, val_main_v30_apply, val_main_v29_apply, l28, r28, b30, cat_ref, Ideal.hostUnary_exp_def, Ideal.hostUnary_tanh_def, Ideal.hostNegf_def, Ideal.negf_def, Ideal.hostDivf_def, Ideal.maximumf_def, Ideal.addf_def, Ideal.mulf_def, Ideal.subf_def, Ideal.ofBits_def, Ideal.ofBits_zero_f32, ofBits_one_f32]
  rfl

/-- The state side's row of gate inputs at `(b, n)`. -/
theorem gh_ref (x2 x5 : (⟨S16384x1024, .f32⟩ : BufTy).Contents (Elt Ideal)) (x8 : (⟨S1024x1024, .f32⟩ : BufTy).Contents (Elt Ideal)) (x9 : (⟨S1024, .f32⟩ : BufTy).Contents (Elt Ideal)) (x11 : (⟨S1024x3072, .f32⟩ : BufTy).Contents (Elt Ideal)) (x13 : (⟨S3072, .f32⟩ : BufTy).Contents (Elt Ideal))
    (b : Fin 16384) (n : Fin 3072) :
    val_main_v35 (F := Ideal) x2 x5 x8 x9 x11 x13 (ix2 b n)
      = affine (decayed (row x2 b) (row x5 b) (fun k j => x8 (ix2 j k)) (fun j => x9 (ix1 j))) (fun k n => x11 (ix2 k n)) (fun n => x13 (ix1 n)) n := by
  simp only [val_main_v35_apply, val_main_v32_apply, val_main_v34_apply, val_main_v33_apply, l32, r32, b34, h_ref, Ideal.hostUnary_exp_def, Ideal.hostUnary_tanh_def, Ideal.hostNegf_def, Ideal.negf_def, Ideal.hostDivf_def, Ideal.maximumf_def, Ideal.addf_def, Ideal.mulf_def, Ideal.subf_def, Ideal.ofBits_def, Ideal.ofBits_zero_f32, ofBits_one_f32]
  rfl

/-- THE RESULT AT `(b, j)`: the cell of row `b` at `j`. -/
theorem out_ref (x0 x1 x2 x3 x4 x5 : (⟨S16384x1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal))
    (x10 : (⟨S2048x3072, .f32⟩ : BufTy).Contents (Elt Ideal)) (x11 : (⟨S1024x3072, .f32⟩ : BufTy).Contents (Elt Ideal)) (x12 x13 : (⟨S3072, .f32⟩ : BufTy).Contents (Elt Ideal)) (b : Fin 16384) (j : Fin 1024) :
    val_main_v63 (F := Ideal) x0 x1 x2 x3 x4 x5 x6 x7 x8 x9 x10 x11 x12 x13 (ix2 b j)
      = cell (row x0 b) (row x1 b) (row x2 b) (row x3 b) (row x4 b) (row x5 b) (fun k j => x6 (ix2 j k)) (fun j => x7 (ix1 j)) (fun k j => x8 (ix2 j k)) (fun j => x9 (ix1 j))
          (fun k n => x10 (ix2 k n)) (fun n => x12 (ix1 n)) (fun k n => x11 (ix2 k n)) (fun n => x13 (ix1 n)) j := by
  simp only [val_main_v63_apply, val_main_v62_apply, val_main_v61_apply, val_main_v60_apply, val_main_v59_apply, val_main_cst_5_apply, val_main_v58_apply, val_main_v57_apply, val_main_v56_apply, val_main_v55_apply, val_main_v54_apply, val_main_cst_4_apply, val_main_v53_apply, val_main_v52_apply, val_main_cst_3_apply, val_main_v51_apply, val_main_v50_apply, val_main_v49_apply, val_main_v48_apply, val_main_v47_apply, val_main_cst_2_apply, val_main_v46_apply, val_main_v45_apply, val_main_cst_1_apply, val_main_v44_apply, val_main_v43_apply, val_main_v42_apply, val_main_v41_apply, val_main_v40_apply, val_main_v39_apply, val_main_v38_apply, val_main_v37_apply, val_main_v36_apply,
    s36, s37, s38, s39, s40, s41, gi_ref, gh_ref, h_ref, Ideal.hostUnary_exp_def, Ideal.hostUnary_tanh_def, Ideal.hostNegf_def, Ideal.negf_def, Ideal.hostDivf_def, Ideal.maximumf_def, Ideal.addf_def, Ideal.mulf_def, Ideal.subf_def, Ideal.ofBits_def, Ideal.ofBits_zero_f32, ofBits_one_f32]
  rfl

/-- THE RESULT ARRAY is the cell on the whole batch. -/
theorem ref_eq (x0 x1 x2 x3 x4 x5 : (⟨S16384x1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal))
    (x10 : (⟨S2048x3072, .f32⟩ : BufTy).Contents (Elt Ideal)) (x11 : (⟨S1024x3072, .f32⟩ : BufTy).Contents (Elt Ideal)) (x12 x13 : (⟨S3072, .f32⟩ : BufTy).Contents (Elt Ideal)) :
    val_main_v63 (F := Ideal) x0 x1 x2 x3 x4 x5 x6 x7 x8 x9 x10 x11 x12 x13 = G x0 x1 x2 x3 x4 x5 x6 x7 x8 x9 x10 x11 x12 x13 := by
  funext i
  obtain ⟨b, j, rfl⟩ : ∃ (b : Fin 16384) (j : Fin 1024), i = ix2 b j := ⟨i 0, i 1, eq_ix2 i⟩
  rw [out_ref, G_apply]

end Cert.ReferenceIdeal.RefValue

end
-- ==== Proof.lean ====
/-
  A gated recurrent cell with decayed imputation of missing inputs, on a batch of 16384 rows of width 1024. For each row:
  two decay gates `exp (-(max (d · Wᵀ + b) 0))` of the time gaps `d`; the observation blended with its decayed imputation,
  `mk * x + (1 - mk) * (dx * last + (1 - dx) * mean)`; the hidden state scaled by its gate; two rows of 3072 gate inputs,
  `[xt, mk] · Wi + bi` and `h · Wr + br`; then `r = σ (·)`, `z = σ (·)`, `n = tanh (· + r * ·)` over the three thirds of
  those columns, and the result `(1 - z) * n + z * h`.

  The kernel does this 128 rows at a time, one block per grid point, with the weights prepared by the host (the decay
  weights transposed, all cast to a narrower format, the biases reshaped to one row): at the extended reals a change of
  format is the identity, a matrix product into a zero accumulator is the plain sum over the contracted coordinate, the
  logistic operation is `1 / (1 + exp (-x))`, which is how the reference spells it, and `0 - a` is `-a`. Both programs
  therefore compute the same sums in the same grouping, and no finiteness of the inputs is used. Proof/Cell.lean states
  the cell for one row and for the batch; Proof/KernelBody.lean reads the kernel body at an entry of its block and
  Proof/KernelValue.lean lays the 128 blocks out over the result array; Proof/RefValue.lean reads the reference at an
  entry. The three frames are the generated ones (the reference's its run with the result dropped), and the
  idealization rewrote nothing, so there is nothing to preserve.
-/
import proofs.«154949_j75462575390850_1_alg».proof.Defs
import proofs.«154949_j75462575390850_1_alg».proof.Proof.Gen.Kernel
import proofs.«154949_j75462575390850_1_alg».proof.Proof.Gen.Kernel.Skeleton
import proofs.«154949_j75462575390850_1_alg».proof.Proof.Gen.Kernel.Launch
import proofs.«154949_j75462575390850_1_alg».proof.Proof.Gen.Kernel.Points
import proofs.«154949_j75462575390850_1_alg».proof.Proof.Gen.Kernel.Frame
import proofs.«154949_j75462575390850_1_alg».proof.Proof.Gen.KernelIdeal
import proofs.«154949_j75462575390850_1_alg».proof.Proof.Gen.KernelIdeal.Skeleton
import proofs.«154949_j75462575390850_1_alg».proof.Proof.Gen.KernelIdeal.Launch
import proofs.«154949_j75462575390850_1_alg».proof.Proof.Gen.KernelIdeal.Points
import proofs.«154949_j75462575390850_1_alg».proof.Proof.Gen.KernelIdeal.Frame
import proofs.«154949_j75462575390850_1_alg».proof.Proof.Gen.ReferenceIdeal
import proofs.«154949_j75462575390850_1_alg».proof.Proof.Gen.KernelIdeal.Value
import proofs.«154949_j75462575390850_1_alg».proof.Proof.Gen.ReferenceIdeal.Run
import proofs.«154949_j75462575390850_1_alg».proof.Proof.Gen.ReferenceIdeal.Read
import proofs.«154949_j75462575390850_1_alg».proof.Proof.Gen.Pre_finite_inputs
import proofs.«154949_j75462575390850_1_alg».proof.Proof.KernelValue
import proofs.«154949_j75462575390850_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the fourteen arguments both programs end with the cell on the whole batch in their
    result arrays: the kernel's by its blocks, the reference's stage by stage. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.ReferenceIdeal.RefValue.ref_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
